-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000x16 : Shape := ⟨2, ![100000, 16]⟩
abbrev S5000x128 : Shape := ⟨2, ![5000, 128]⟩
abbrev S5000x16 : Shape := ⟨2, ![5000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 126
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S100000x16, .f32⟩
  | .hbm, ⟨69, _⟩ => ⟨S100000, .i32⟩
  | .hbm, ⟨70, _⟩ => ⟨S3300000, .i32⟩
  | .hbm, ⟨71, _⟩ => ⟨S3300000, .i32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S3300000, .i32⟩
  | .hbm, ⟨87, _⟩ => ⟨S3300000, .i1⟩
  | .hbm, ⟨88, _⟩ => ⟨S_, .i32⟩
  | .hbm, ⟨89, _⟩ => ⟨S3300000, .i32⟩
  | .hbm, ⟨90, _⟩ => ⟨S3300000, .i32⟩
  | .hbm, ⟨91, _⟩ => ⟨S3300000, .i32⟩
  | .hbm, ⟨92, _⟩ => ⟨S3300000x1, .i32⟩
  | .hbm, ⟨93, _⟩ => ⟨S3300000, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000, .f32⟩
  | .hbm, ⟨103, _⟩ => ⟨S3300000, .f32⟩
  | .hbm, ⟨104, _⟩ => ⟨S_, .i32⟩
  | .hbm, ⟨105, _⟩ => ⟨S3300000, .i32⟩
  | .hbm, ⟨106, _⟩ => ⟨S3300000, .i1⟩
  | .hbm, ⟨107, _⟩ => ⟨S_, .i32⟩
  | .hbm, ⟨108, _⟩ => ⟨S3300000, .i32⟩
  | .hbm, ⟨109, _⟩ => ⟨S3300000, .i32⟩
  | .hbm, ⟨110, _⟩ => ⟨S3300000, .i32⟩
  | .hbm, ⟨111, _⟩ => ⟨S3300000x1, .i32⟩
  | .hbm, ⟨112, _⟩ => ⟨S3300000x16, .f32⟩
  | .hbm, ⟨113, _⟩ => ⟨S3300000x1, .f32⟩
  | .hbm, ⟨114, _⟩ => ⟨S3300000x16, .f32⟩
  | .hbm, ⟨115, _⟩ => ⟨S3300000x16, .f32⟩
  | .hbm, ⟨116, _⟩ => ⟨S_, .f32⟩
  | .hbm, ⟨117, _⟩ => ⟨S100000x16, .f32⟩
  | .hbm, ⟨118, _⟩ => ⟨S3300000x1, .i32⟩
  | .hbm, ⟨119, _⟩ => ⟨S100000x16, .f32⟩
  | .hbm, ⟨120, _⟩ => ⟨S1x16, .f32⟩
  | .hbm, ⟨121, _⟩ => ⟨S100000x16, .f32⟩
  | .hbm, ⟨122, _⟩ => ⟨S100000x16, .f32⟩
  | .hbm, ⟨123, _⟩ => ⟨S_, .f32⟩
  | .hbm, ⟨124, _⟩ => ⟨S100000x16, .f32⟩
  | .hbm, ⟨125, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x16, .f32⟩
  | .local _ .vmem, ⟨8, _⟩ => ⟨S5000x16, .f32⟩
  | .local _ .vmem, ⟨9, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call3_cst : Ref sig .tc := ⟨.hbm, 123, rfl⟩
abbrev main_call3_v0 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  dot_S5000x128_S128x16_S5000x16_1_0_0_1_n_n_wf : DotDims.WF S5000x128 S128x16 S5000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .f32⟩
  | .hbm, ⟨66, _⟩ => ⟨S100000x16, .f32⟩
  | .hbm, ⟨67, _⟩ => ⟨S100000x16, .f32⟩
  | .hbm, ⟨68, _⟩ => ⟨S100000x16, .f32⟩
  | .hbm, ⟨69, _⟩ => ⟨S100000, .i32⟩
  | .hbm, ⟨70, _⟩ => ⟨S3300000, .i32⟩
  | .hbm, ⟨71, _⟩ => ⟨S3300000, .i32⟩
  | .hbm, ⟨72, _⟩ => ⟨S_, .f32⟩
  | .hbm, ⟨73, _⟩ => ⟨S3300000, .f32⟩
  | .hbm, ⟨74, _⟩ => ⟨S_, .f32⟩
  | .hbm, ⟨75, _⟩ => ⟨S100000, .f32⟩
  | .hbm, ⟨76, _⟩ => ⟨S3300000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S3300000, .i32⟩
  | .hbm, ⟨87, _⟩ => ⟨S3300000, .i1⟩
  | .hbm, ⟨88, _⟩ => ⟨S_, .i32⟩
  | .hbm, ⟨89, _⟩ => ⟨S3300000, .i32⟩
  | .hbm, ⟨90, _⟩ => ⟨S3300000, .i32⟩
  | .hbm, ⟨91, _⟩ => ⟨S3300000, .i32⟩
  | .hbm, ⟨92, _⟩ => ⟨S3300000x1, .i32⟩
  | .hbm, ⟨93, _⟩ => ⟨S3300000, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000, .f32⟩
  | .hbm, ⟨103, _⟩ => ⟨S3300000, .f32⟩
  | .hbm, ⟨104, _⟩ => ⟨S_, .i32⟩
  | .hbm, ⟨105, _⟩ => ⟨S3300000, .i32⟩
  | .hbm, ⟨106, _⟩ => ⟨S3300000, .i1⟩
  | .hbm, ⟨107, _⟩ => ⟨S_, .i32⟩
  | .hbm, ⟨108, _⟩ => ⟨S3300000, .i32⟩
  | .hbm, ⟨109, _⟩ => ⟨S3300000, .i32⟩
  | .hbm, ⟨110, _⟩ => ⟨S3300000, .i32⟩
  | .hbm, ⟨111, _⟩ => ⟨S3300000x1, .i32⟩
  | .hbm, ⟨112, _⟩ => ⟨S3300000x16, .f32⟩
  | .hbm, ⟨113, _⟩ => ⟨S3300000x1, .f32⟩
  | .hbm, ⟨114, _⟩ => ⟨S3300000x16, .f32⟩
  | .hbm, ⟨115, _⟩ => ⟨S3300000x16, .f32⟩
  | .hbm, ⟨116, _⟩ => ⟨S_, .f32⟩
  | .hbm, ⟨117, _⟩ => ⟨S100000x16, .f32⟩
  | .hbm, ⟨118, _⟩ => ⟨S3300000x1, .i32⟩
  | .hbm, ⟨119, _⟩ => ⟨S100000x16, .f32⟩
  | .hbm, ⟨120, _⟩ => ⟨S1x16, .f32⟩
  | .hbm, ⟨121, _⟩ => ⟨S100000x16, .f32⟩
  | .hbm, ⟨122, _⟩ => ⟨S100000x16, .f32⟩
  | .hbm, ⟨123, _⟩ => ⟨S_, .f32⟩
  | .hbm, ⟨124, _⟩ => ⟨S100000x16, .f32⟩
  | .hbm, ⟨125, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call2_v0 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call3_cst : Ref sig .tc := ⟨.hbm, 123, rfl⟩
abbrev main_call3_v0 : Ref sig .tc := ⟨.hbm, 124, rfl⟩
abbrev main_v91 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.Layer.lean ====
/-
  One graph-convolution layer as the host computes it, as ONE function of the transformed features, the edge list and
  the bias, and the matrix product as a plain sum.

  The graph has N = 100000 nodes and E = 3200000 edges, each edge a source row[e] and a target col[e]. A self-loop is
  added at every node, so the lists become r = row ++ (0 … N-1) and c = col ++ (0 … N-1), of length E + N = 3300000.
  The degree of node v is the number of positions j with c[j] = v (a scatter-add of ones into zeros), its weight is
  dinv[v] = deg[v]^(-1/2) where deg[v] > 0 and 0 elsewhere, edge j carries the factor dinv[r[j]] · dinv[c[j]], and the
  layer's output at node v and feature f is  max (b[f] + Σ_{j : c[j] = v} h[r[j], f] · dinv[r[j]] · dinv[c[j]], 0).
  Indices are read as jnp reads them: a negative word is wrapped once by adding N before the gather.

  Both programs apply this same function twice, to h = x · W1 and then to h' = (layer output) · W2; they differ only in
  how the two products are computed, and a product is the same sum Σ_q l[p, q] · w[q, v] either way.
-/
import proofs.«153871_j62079457296944_1_alg».proof.KernelIdeal
import Idealize.ShloMosaic.PureOps.Ideal
import Idealize.ShloMosaic.Lib.ValueIdx

noncomputable section

open scoped BigOperators

namespace Cert.KernelIdeal.Layer

open Cert.KernelIdeal Idealize.ShloMosaic Idealize.ShloMosaic.ValueIdx

variable {F : FTy → Type} [FloatOps F] [Facts]
open Facts₀ Facts

/-- Row 0 of the edge list: the sources. -/
def rowOf (e : IVec S2x3200000 32) : IVec S3200000 32 :=
  shapeCast S3200000 (extractStridedSlice S1x3200000 ![0, 0] e slices_S2x3200000_S1x3200000_0_0) shapeCasts_S1x3200000_S3200000

/-- Row 1 of the edge list: the targets. -/
def colOf (e : IVec S2x3200000 32) : IVec S3200000 32 :=
  shapeCast S3200000 (extractStridedSlice S1x3200000 ![1, 0] e slices_S2x3200000_S1x3200000_1_0) shapeCasts_S1x3200000_S3200000

/-- An end-point list with the self-loops appended: a ++ (0 … N-1). -/
def withLoops (a : IVec S3200000 32) : IVec S3300000 32 :=
  concatenate S3300000 0 [⟨S3200000, a⟩, ⟨S100000, iotaInDim S100000 32 0⟩] concatenates_S3200000_S100000_S3300000_d0

/-- A list of node numbers as a column of gather indices, a negative word wrapped by adding N. -/
def wrapped (a : IVec S3300000 32) : IVec S3300000x1 32 :=
  broadcastInDim S3300000x1 ![0] bcast_S3300000_S3300000x1_0
    (select (cmpi .slt a (broadcastInDim S3300000 ![] bcast_S_S3300000 (constantI S_ 32 0#32)))
      (addi a (broadcastInDim S3300000 ![] bcast_S_S3300000 (constantI S_ 32 100000#32))) a)

/-- The degrees with self-loops: ones scattered and added at the targets. -/
def degree (c : IVec S3300000 32) : FVec F S100000 .f32 :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 c)
    (broadcastInDim S3300000 ![] bcast_S_S3300000 (constant (F := F) S_ .f32 0x3F800000#32))

/-- deg^(-1/2) where the degree is positive, 0 elsewhere. -/
def invSqrt (deg : FVec F S100000 .f32) : FVec F S100000 .f32 :=
  select (cmpf (F := F) .ogt deg (broadcastInDim S100000 ![] bcast_S_S100000 (constant (F := F) S_ .f32 0x00000000#32)))
    (Host.rsqrt (F := F) deg) (broadcastInDim S100000 ![] bcast_S_S100000 (constant (F := F) S_ .f32 0x00000000#32))

/-- The factor of each edge: dinv at its source times dinv at its target. -/
def edgeNorm (r c : IVec S3300000 32) : FVec F S3300000 .f32 :=
  mulf (Host.gather gather_S100000_S3300000x1_S3300000_n_0_n_n_0_1_1 (invSqrt (F := F) (degree c)) (wrapped r))
    (Host.gather gather_S100000_S3300000x1_S3300000_n_0_n_n_0_1_1 (invSqrt (F := F) (degree c)) (wrapped c))

/-- The messages: the source's feature row times the edge's factor. -/
def messages (h : FVec F S100000x16 .f32) (r c : IVec S3300000 32) : FVec F S3300000x16 .f32 :=
  mulf (Host.gather gather_S100000x16_S3300000x1_S3300000x16_1_0_n_n_0_1_116 h (wrapped r))
    (broadcastInDim S3300000x16 ![0, 1] bcast_S3300000x1_S3300000x16_0_1
      (broadcastInDim S3300000x1 ![0] bcast_S3300000_S3300000x1_0 (edgeNorm (F := F) r c)))

/-- The layer over end-point lists that already carry the self-loops. -/
def layerOn (h : FVec F S100000x16 .f32) (r c : IVec S3300000 32) (b : FVec F S16 .f32) : FVec F S100000x16 .f32 :=
  maximumf
    (addf
      (Host.scatterAdd scatter_S100000x16_S3300000x1_S3300000x16_1_0_0_1
        (broadcastInDim S100000x16 ![] bcast_S_S100000x16 (constant (F := F) S_ .f32 0x00000000#32))
        (broadcastInDim S3300000x1 ![0] bcast_S3300000_S3300000x1_0 c)
        (messages h r c))
      (broadcastInDim S100000x16 ![0, 1] bcast_S1x16_S100000x16_0_1 (broadcastInDim S1x16 ![1] bcast_S16_S1x16_1 b)))
    (broadcastInDim S100000x16 ![] bcast_S_S100000x16 (constant (F := F) S_ .f32 0x00000000#32))

/-- The layer: aggregate the transformed features h over the edges (sources row, targets col) with self-loops and the
    symmetric normalisation, add the bias, clamp below at 0. -/
def layer (h : FVec F S100000x16 .f32) (row col : IVec S3200000 32) (b : FVec F S16 .f32) : FVec F S100000x16 .f32 :=
  layerOn h (withLoops row) (withLoops col) b

/-- The product of an [n, K] array with a [K, c] array as the plain sum over the shared axis. -/
def mm {n K c : Nat} (l : (⟨2, ![n, K]⟩ : Shape).Idx → EReal) (w : (⟨2, ![K, c]⟩ : Shape).Idx → EReal) :
    (⟨2, ![n, c]⟩ : Shape).Idx → EReal :=
  fun j => ∑ q : Fin K, l (ix2 (j 0) q) * w (ix2 q (j 1))

/-- What both programs compute at the ideal values, as a function of the six arguments. -/
def network (x : FVec Ideal S100000x128 .f32) (e : IVec S2x3200000 32) (w1 : FVec Ideal S128x16 .f32) (b1 : FVec Ideal S16 .f32)
    (w2 : FVec Ideal S16x16 .f32) (b2 : FVec Ideal S16 .f32) : FVec Ideal S100000x16 .f32 :=
  layer (F := Ideal) (mm (n := 100000) (K := 16) (c := 16)
      (layer (F := Ideal) (mm (n := 100000) (K := 128) (c := 16) x w1) (rowOf e) (colOf e) b1) w2) (rowOf e) (colOf e) b2

end Cert.KernelIdeal.Layer

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.RegionValue.lean ====
/-
  What each of the two pallas_calls leaves in its output array: the whole matrix product.

  A call walks 20 grid points; at point t it loads rows 5000·t … 5000·t + 4999 of its left operand and the whole right
  operand, multiplies them into a zero accumulator (the conversions to bf16 are the identity on ideal values) and writes
  the [5000, 16] result back as rows 5000·t … of the output. Entry (p, v) of that block is Σ_q l[5000·t + p, q] · w[q, v],
  which is entry (5000·t + p, v) of the whole product: every block is the restriction of ONE whole-array function, the 20
  blocks tile the 100000 rows, so the output array ends holding the product.
-/
import proofs.«153871_j62079457296944_1_alg».proof.Proof.Gen.KernelIdeal.Frame
import proofs.«153871_j62079457296944_1_alg».proof.Proof.Layer
import proofs.«153871_j62079457296944_1_alg».proof.Proof.LibDotRowsCols
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Cert.KernelIdeal.Layer Cert.Lib.DotRowsCols
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The arrays the first call reads, as the region finds them, at their literal types. -/
abbrev lhs0 (c : Dev nD) : FVec Ideal S100000x128 .f32 := V c main_arg0
abbrev rhs0 (c : Dev nD) : FVec Ideal S128x16 .f32 := V c main_arg2

/-! ## Region 0: x · W1 -/

/-- The first call's dimension numbers are those of a rows-by-columns product. -/
theorem rowsCols0 : RowsCols dot_S5000x128_S128x16_S5000x16_1_0_0_1_n_n := ⟨rfl, rfl, rfl, rfl, rfl, rfl⟩

/-- The body's stored value at an entry: the row of the left block against the column of the right operand. -/
theorem pay0_apply (x0 : Vec Ideal S5000x128 .f32) (x1 : Vec Ideal S128x16 .f32) (p : Fin 5000) (v : Fin 16) :
    k0_pay1 (F := Ideal) x0 x1 (ix2 p v) = ∑ q : Fin 128, x0 (ix2 p q) * x1 (ix2 q v) := by
  unfold k0_pay1
  exact rowsCols0.matmul_zero_apply none (truncf .bf16 x0 bitsLt_bf16_f32) (truncf .bf16 x1 bitsLt_bf16_f32) (ix2 p v)

/-- The printed index maps over the grid: the left operand's block and the output's block move together along the
    rows, nothing moves along the columns, the right operand stays, and the output's row block stays below 20. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- What point t writes back is block t of the whole product of the arrays the region finds. -/
theorem flushed0_eq (c : Dev nD) (t : Fin cfg0.N) :
    (dat0 V c).flushed 2 t = ((cfg0.win 2).blk t).view.read (Elt Ideal)
      (mm (n := 100000) (K := 128) (c := 16) (lhs0 V c) (rhs0 V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x16) hz]
  obtain ⟨e0, e1, e2, e3, e4, e5⟩ := idx_facts0 t
  funext j
  obtain ⟨p, v, rfl⟩ : ∃ (p : Fin 5000) (v : Fin 16), j = ix2 p v := ⟨j 0, j 1, eq_ix2 j⟩
  refine (pay0_apply (iblk0 V c 0 t) (iblk0 V c 1 t) p v).trans ?_
  show _ = ∑ q : Fin 128, lhs0 V c (ix2 ((((cfg0.win 2).blk t).view.emb (ix2 p v)) 0) q)
      * rhs0 V c (ix2 q ((((cfg0.win 2).blk t).view.emb (ix2 p v)) 1))
  refine Finset.sum_congr rfl fun q _ => ?_
  have h0 : ((cfg0.win 0).blk t).view.emb (ix2 p q) = ix2 ((((cfg0.win 2).blk t).view.emb (ix2 p v)) 0) q := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = q.val; omega
  have h1 : ((cfg0.win 1).blk t).view.emb (ix2 q v) = ix2 q ((((cfg0.win 2).blk t).view.emb (ix2 p v)) 1) := by
    funext a; apply Fin.ext
    match a with
    | ⟨0, _⟩ => show win0_1.index t (0 : Fin 2) * 128 + 1 * q.val = q.val; omega
    | ⟨1, _⟩ => show win0_1.index t (1 : Fin 2) * 16 + 1 * v.val = win0_2.index t (1 : Fin 2) * 16 + 1 * v.val; omega
  show lhs0 V c (((cfg0.win 0).blk t).view.emb (ix2 p q)) * rhs0 V c (((cfg0.win 1).blk t).view.emb (ix2 q v)) = _
  exact congrArg₂ (· * ·) (congrArg (lhs0 V c) h0) (congrArg (rhs0 V c) h1)

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v4).slice (win0_2.rect t)).set ↔ _
  rw [View.set_slice_whole, Rect.mem_set_unit]
  exact Iff.rfl

/-- The 20 row blocks cover the output array. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array of the first call after the region: the whole product of the arrays the region finds. -/
theorem final0 (c : Dev nD) :
    (dat0 V c).arrAt 2 cfg0.N = mm (n := 100000) (K := 128) (c := 16) (lhs0 V c) (rhs0 V c) :=
  (dat0 V c).arrAt_eq_of_cover 2 _ (fun t _ => flushed0_eq V c t) cover0

/-! ## Region 1: h · W2 -/

/-- The arrays the second call reads, as the region finds them, at their literal types. -/
abbrev lhs1 (c : Dev nD) : FVec Ideal S100000x16 .f32 := V c main_v47
abbrev rhs1 (c : Dev nD) : FVec Ideal S16x16 .f32 := V c main_arg4

/-- The second call's dimension numbers are those of a rows-by-columns product. -/
theorem rowsCols1 : RowsCols dot_S5000x16_S16x16_S5000x16_1_0_0_1_n_n := ⟨rfl, rfl, rfl, rfl, rfl, rfl⟩

/-- The body's stored value at an entry: the row of the left block against the column of the right operand. -/
theorem pay1_apply (x0 : Vec Ideal S5000x16 .f32) (x1 : Vec Ideal S16x16 .f32) (p : Fin 5000) (v : Fin 16) :
    k1_pay1 (F := Ideal) x0 x1 (ix2 p v) = ∑ q : Fin 16, x0 (ix2 p q) * x1 (ix2 q v) := by
  unfold k1_pay1
  refine (rowsCols1.matmul_zero_apply none (truncf .bf16 (shapeCast S5000x16 x0 shapeCasts_S5000x16_S5000x16) bitsLt_bf16_f32)
    (truncf .bf16 x1 bitsLt_bf16_f32) (ix2 p v)).trans ?_
  refine Finset.sum_congr rfl fun q _ => ?_
  show shapeCast S5000x16 x0 shapeCasts_S5000x16_S5000x16 (ix2 p q) * x1 (ix2 q v) = _
  rw [shapeCast_self]

/-- The printed index maps over the grid: the left operand's block and the output's block move together along the
    rows, nothing moves along the columns, the right operand stays, and the output's row block stays below 20. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every row block is some point's. -/
theorem idx_onto1 : ∀ q0 : Fin 20, ∃ t : Fin cfg1.N, win1_2.index t = ![q0.val, 0] :=
  (by decide +kernel : ∀ q0 : Fin 20, ∃ t : Fin grid1.N, win1_2.index t = ![q0.val, 0])

/-- What point t writes back is block t of the whole product of the arrays the region finds. -/
theorem flushed1_eq (c : Dev nD) (t : Fin cfg1.N) :
    (dat1 V c).flushed 2 t = ((cfg1.win 2).blk t).view.read (Elt Ideal)
      (mm (n := 100000) (K := 16) (c := 16) (lhs1 V c) (rhs1 V c)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x16) hz]
  obtain ⟨e0, e1, e2, e3, e4, e5⟩ := idx_facts1 t
  funext j
  obtain ⟨p, v, rfl⟩ : ∃ (p : Fin 5000) (v : Fin 16), j = ix2 p v := ⟨j 0, j 1, eq_ix2 j⟩
  refine (pay1_apply (iblk1 V c 0 t) (iblk1 V c 1 t) p v).trans ?_
  show _ = ∑ q : Fin 16, lhs1 V c (ix2 ((((cfg1.win 2).blk t).view.emb (ix2 p v)) 0) q)
      * rhs1 V c (ix2 q ((((cfg1.win 2).blk t).view.emb (ix2 p v)) 1))
  refine Finset.sum_congr rfl fun q _ => ?_
  have h0 : ((cfg1.win 0).blk t).view.emb (ix2 p q) = ix2 ((((cfg1.win 2).blk t).view.emb (ix2 p v)) 0) q := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 16 + 1 * q.val = q.val; omega
  have h1 : ((cfg1.win 1).blk t).view.emb (ix2 q v) = ix2 q ((((cfg1.win 2).blk t).view.emb (ix2 p v)) 1) := by
    funext a; apply Fin.ext
    match a with
    | ⟨0, _⟩ => show win1_1.index t (0 : Fin 2) * 16 + 1 * q.val = q.val; omega
    | ⟨1, _⟩ => show win1_1.index t (1 : Fin 2) * 16 + 1 * v.val = win1_2.index t (1 : Fin 2) * 16 + 1 * v.val; omega
  show lhs1 V c (((cfg1.win 0).blk t).view.emb (ix2 p q)) * rhs1 V c (((cfg1.win 1).blk t).view.emb (ix2 q v)) = _
  exact congrArg₂ (· * ·) (congrArg (lhs1 V c) h0) (congrArg (rhs1 V c) h1)

/-- An index of the output array is in point t's block iff each coordinate is in the block's range on its axis. -/
theorem mem_blk1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v48).slice (win1_2.rect t)).set ↔ _
  rw [View.set_slice_whole, Rect.mem_set_unit]
  exact Iff.rfl

/-- The 20 row blocks cover the output array. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- The output array of the second call after the region: the whole product of the arrays the region finds. -/
theorem final1 (c : Dev nD) :
    (dat1 V c).arrAt 2 cfg1.N = mm (n := 100000) (K := 16) (c := 16) (lhs1 V c) (rhs1 V c) :=
  (dat1 V c).arrAt_eq_of_cover 2 _ (fun t _ => flushed1_eq V c t) cover1

end Cert.KernelIdeal.RegionValue

end
-- ==== Proof.LibStagedRun.lean ====
/-
  Reading a long straight line of host operations in stages.

  The contents a line of host operations leaves (`StableHlo.after`) can be read one buffer at a time by rewriting each
  operation's result. Read in one go, a value that several later operations use is copied once per use, and a line of
  a hundred operations over a graph's index arrays no longer fits. Three tools keep it small.

  * `after_take_drop`: the fold over a line is the fold over its first k operations followed by the fold over the
    rest. Cut the line at the mathematical boundaries, give the contents after each cut a name by a `def` (so that it
    stays folded), and read each stage's buffers as functions of the named contents of the stage before.
  * `results_rw`: after the one-pass reading (`after_results_simp`), which shares every value but does not look
    inside the pieces of a concatenation, this rewriting loop reads what is left there.
  * `cast_there_and_back`: the operations of a module-local function are written at their tensor types and moved to
    their buffers' types and back; after a reading these moves come in pairs around every intermediate value, and
    rewriting with this lemma removes each pair without ever computing a buffer's type.
-/
import Idealize.ShloMosaic.Lib.StableHlo.Run

namespace Cert.Lib.StagedRun

open Idealize.ShloMosaic Idealize.ShloMosaic.StableHlo

/-- Reads what is left of a fold after the one-pass reading: each operation's result at its own buffer, any other
    buffer as it was, also inside the pieces of a concatenation. -/
macro "results_rw" : tactic => `(tactic| (repeat (first
  | rw [nullary_result] | rw [unary_result] | rw [binary_result] | rw [ternary_result] | rw [quaternary_result]
  | rw [reshape_result]
  | (rw [nullary_result_ne]; rotate_left; decide)
  | (rw [unary_result_ne]; rotate_left; decide)
  | (rw [binary_result_ne]; rotate_left; decide)
  | (rw [ternary_result_ne]; rotate_left; decide)
  | (rw [quaternary_result_ne]; rotate_left; decide)
  | (rw [reshape_result_ne]; rotate_left; decide))))

variable {τ : Topo} {sig : RefSig} {Val : EltTy → Type}

/-- Folding a line of operations is folding its first k and then the rest. -/
theorem after_take_drop (L : List (HloOp τ sig Val)) (k : Nat) (V : Valuation τ sig Val) :
    after L V = after (L.drop k) (after (L.take k) V) := by
  induction k generalizing L V with
  | zero => rfl
  | succ k ih =>
    cases L with
    | nil => rfl
    | cons op l => exact ih l (op.result V)

/-- Moving a value along an equation of types and back gives the value. -/
theorem cast_there_and_back {α β : Sort _} (h : α = β) (h' : β = α) (v : α) : cast h' (cast h v) = v := by
  subst h; rfl

end Cert.Lib.StagedRun
-- ==== Proof.KernelStages.lean ====
/-
  The idealized kernel's result as the function `network` of its arguments, read off the fold of buffer contents through
  @main's segments.

  @main is: four host operations (the two rows of the edge list), the first product as a pallas_call, one layer's host
  operations, the second product as a pallas_call, the same layer's host operations again. The contents at each
  boundary are read one stage at a time: a stage's result buffers as functions of the contents at the boundary before
  it, and the buffers a stage does not write carried across it unchanged.
-/
import proofs.«153871_j62079457296944_1_alg».proof.Proof.Gen.KernelIdeal.Frame
import proofs.«153871_j62079457296944_1_alg».proof.Proof.Layer
import proofs.«153871_j62079457296944_1_alg».proof.Proof.RegionValue
import proofs.«153871_j62079457296944_1_alg».proof.Proof.LibStagedRun
import Idealize.ShloMosaic.Lib.StableHlo.Run

set_option maxRecDepth 16384

noncomputable section

namespace Cert.KernelIdeal.Stages

open Cert.KernelIdeal Cert.KernelIdeal.Gen Cert.KernelIdeal.Layer Cert.Lib.StagedRun
open Idealize.ShloMosaic Idealize.ShloMosaic.TcCoe Idealize.ShloMosaic.StableHlo Idealize.SL.Sem

section Generic

variable {F : FTy → Type} [FloatOps F]
variable (m : (ℓ : Loc nD τ sig) → Buf (Elt F) ℓ) (ρ : Dev nD → PrngReg)

/-! ## Before the first product: the edge list's two rows, the arguments as launched -/

theorem W1_v1 (c : Dev nD) : W1 m ρ c (Proc.devRef .tc main_v1) = rowOf (m ((c : Thread nD τ).loc main_arg1)) := by
  dsimp only [W1, hostOps0]
  after_results_simp
  rfl

theorem W1_v3 (c : Dev nD) : W1 m ρ c (Proc.devRef .tc main_v3) = colOf (m ((c : Thread nD τ).loc main_arg1)) := by
  dsimp only [W1, hostOps0]
  after_results_simp
  rfl

theorem W1_arg (c : Dev nD) (b : Ref sig .tc) (h0 : b ≠ main_v0) (h1 : b ≠ main_v1) (h2 : b ≠ main_v2) (h3 : b ≠ main_v3) :
    W1 m ρ c (Proc.devRef .tc b) = m ((c : Thread nD τ).loc b) := by
  dsimp only [W1, hostOps0]
  simp only [after_cons, after_nil, unary_result_ne' _ _ _ _ h2, unary_result_ne' _ _ _ _ h0, reshape_result_ne' _ _ _ _ _ h1,
    reshape_result_ne' _ _ _ _ _ h3]

/-! ## The first product's region: its output array at the product, every other buffer kept -/

theorem W2_v4 (c : Dev nD) : W2 m ρ c (Proc.devRef .tc main_v4) = (dat0 (V1 m ρ) c).arrAt 2 cfg0.N := W2_arr m ρ c 2

theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-! ## The first layer's host operations -/

set_option maxHeartbeats 2000000 in
/-- The first layer's output from the contents at the first region's exit. -/
theorem W6_v47 (c : Dev nD) : W6 m ρ c (Proc.devRef .tc main_v47)
    = layer (F := F) (W2 m ρ c (Proc.devRef .tc main_v4)) (W2 m ρ c (Proc.devRef .tc main_v1)) (W2 m ρ c (Proc.devRef .tc main_v3))
        (W2 m ρ c (Proc.devRef .tc main_arg3)) := by
  dsimp only [W6, W5, W4, W3, hostOps1, hostOps1_1, hostOps1_2, hostOps1_3]
  after_results_simp
  results_rw
  rfl

/-- A buffer the first layer's operations do not write is carried across them. -/
theorem W6_keep (c : Dev nD) (b : Ref sig .tc) (hb : b = main_v1 ∨ b = main_v3 ∨ b = main_arg4 ∨ b = main_arg5) :
    W6 m ρ c (Proc.devRef .tc b) = W2 m ρ c (Proc.devRef .tc b) := by
  dsimp only [W6, W5, W4, W3, hostOps1, hostOps1_1, hostOps1_2, hostOps1_3]
  rcases hb with rfl | rfl | rfl | rfl <;> after_results_simp

/-! ## The second product's region -/

theorem W7_v48 (c : Dev nD) : W7 m ρ c (Proc.devRef .tc main_v48) = (dat1 (V6 m ρ) c).arrAt 2 cfg1.N := W7_arr m ρ c 2

theorem W7_keep (c : Dev nD) (b : Ref sig .tc) (hb : ∀ w, Pipeline.arrRef spec1 w ≠ b) :
    W7 m ρ c (Proc.devRef .tc b) = W6 m ρ c (Proc.devRef .tc b) := W7_of_ne m ρ c b hb

/-! ## The second layer's host operations -/

set_option maxHeartbeats 2000000 in
/-- The result from the contents at the second region's exit: the same layer again. -/
theorem W11_v91 (c : Dev nD) : W11 m ρ c (Proc.devRef .tc main_v91)
    = layer (F := F) (W7 m ρ c (Proc.devRef .tc main_v48)) (W7 m ρ c (Proc.devRef .tc main_v1)) (W7 m ρ c (Proc.devRef .tc main_v3))
        (W7 m ρ c (Proc.devRef .tc main_arg5)) := by
  dsimp only [W11, W10, W9, W8, hostOps2, hostOps2_1, hostOps2_2, hostOps2_3]
  after_results_simp
  results_rw
  rfl

end Generic

/-! ## The result at the ideal values -/

section Value

variable (mI : (ℓ : Loc nD τ sig) → Buf (Elt Ideal) ℓ) (ρ : Dev nD → PrngReg)

/-- The first product, as the second stage finds it. -/
theorem W2_product (c : Dev nD) : W2 mI ρ c (Proc.devRef .tc main_v4)
    = mm (n := 100000) (K := 128) (c := 16) (mI ((c : Thread nD τ).loc main_arg0)) (mI ((c : Thread nD τ).loc main_arg2)) :=
  (W2_v4 mI ρ c).trans ((RegionValue.final0 (V1 mI ρ) c).trans
    (congrArg₂ (mm (n := 100000) (K := 128) (c := 16))
      (W1_arg mI ρ c main_arg0 (by decide) (by decide) (by decide) (by decide))
      (W1_arg mI ρ c main_arg2 (by decide) (by decide) (by decide) (by decide))))

/-- The sources and targets reach every later stage as the edge list's two rows. -/
theorem W2_row (c : Dev nD) : W2 mI ρ c (Proc.devRef .tc main_v1) = rowOf (mI ((c : Thread nD τ).loc main_arg1)) :=
  (W2_keep mI ρ c main_v1 (by decide)).trans (W1_v1 mI ρ c)
theorem W2_col (c : Dev nD) : W2 mI ρ c (Proc.devRef .tc main_v3) = colOf (mI ((c : Thread nD τ).loc main_arg1)) :=
  (W2_keep mI ρ c main_v3 (by decide)).trans (W1_v3 mI ρ c)
theorem W2_argument (c : Dev nD) (b : Ref sig .tc) (hb : ∀ w, Pipeline.arrRef spec0 w ≠ b)
    (h0 : b ≠ main_v0) (h1 : b ≠ main_v1) (h2 : b ≠ main_v2) (h3 : b ≠ main_v3) :
    W2 mI ρ c (Proc.devRef .tc b) = mI ((c : Thread nD τ).loc b) :=
  (W2_keep mI ρ c b hb).trans (W1_arg mI ρ c b h0 h1 h2 h3)

/-- The first layer's output. -/
theorem W6_layer (c : Dev nD) : W6 mI ρ c (Proc.devRef .tc main_v47)
    = layer (F := Ideal) (mm (n := 100000) (K := 128) (c := 16) (mI ((c : Thread nD τ).loc main_arg0)) (mI ((c : Thread nD τ).loc main_arg2)))
        (rowOf (mI ((c : Thread nD τ).loc main_arg1))) (colOf (mI ((c : Thread nD τ).loc main_arg1))) (mI ((c : Thread nD τ).loc main_arg3)) := by
  rw [W6_v47, W2_product, W2_row, W2_col,
    W2_argument mI ρ c main_arg3 (by decide) (by decide) (by decide) (by decide) (by decide)]

/-- The second product. -/
theorem W7_product (c : Dev nD) : W7 mI ρ c (Proc.devRef .tc main_v48)
    = mm (n := 100000) (K := 16) (c := 16)
        (layer (F := Ideal) (mm (n := 100000) (K := 128) (c := 16) (mI ((c : Thread nD τ).loc main_arg0)) (mI ((c : Thread nD τ).loc main_arg2)))
          (rowOf (mI ((c : Thread nD τ).loc main_arg1))) (colOf (mI ((c : Thread nD τ).loc main_arg1))) (mI ((c : Thread nD τ).loc main_arg3)))
        (mI ((c : Thread nD τ).loc main_arg4)) :=
  (W7_v48 mI ρ c).trans ((RegionValue.final1 (V6 mI ρ) c).trans
    (congrArg₂ (mm (n := 100000) (K := 16) (c := 16)) (W6_layer mI ρ c)
      ((W6_keep mI ρ c main_arg4 (.inr (.inr (.inl rfl)))).trans
        (W2_argument mI ρ c main_arg4 (by decide) (by decide) (by decide) (by decide) (by decide)))))

/-- THE KERNEL'S RESULT: the network of the launch contents of its six arguments. -/
theorem kernel_value (c : Dev nD) : W11 mI ρ c (Proc.devRef .tc main_v91)
    = network (mI ((c : Thread nD τ).loc main_arg0)) (mI ((c : Thread nD τ).loc main_arg1)) (mI ((c : Thread nD τ).loc main_arg2))
        (mI ((c : Thread nD τ).loc main_arg3)) (mI ((c : Thread nD τ).loc main_arg4)) (mI ((c : Thread nD τ).loc main_arg5)) := by
  rw [W11_v91, W7_product,
    (W7_keep mI ρ c main_v1 (by decide)).trans ((W6_keep mI ρ c main_v1 (.inl rfl)).trans (W2_row mI ρ c)),
    (W7_keep mI ρ c main_v3 (by decide)).trans ((W6_keep mI ρ c main_v3 (.inr (.inl rfl))).trans (W2_col mI ρ c)),
    (W7_keep mI ρ c main_arg5 (by decide)).trans ((W6_keep mI ρ c main_arg5 (.inr (.inr (.inr rfl)))).trans
      (W2_argument mI ρ c main_arg5 (by decide) (by decide) (by decide) (by decide) (by decide)))]
  rfl

end Value

end Cert.KernelIdeal.Stages

end
-- ==== Proof.RefStages.lean ====
/-
  The idealized reference's result as the function `network` of its arguments, read off the fold of its 120 host operations.

  The reference's @main is the kernel's host program with a dot_general where the kernel launches a pallas_call: four
  operations (the two rows of the edge list), a product, one layer's 57 operations, a product, the same 57 operations
  again. The fold over the list is cut at those boundaries and read one stage at a time, each stage's result as a
  function of the contents the stage before left; a host product is the plain sum over the shared axis.
-/
import proofs.«153871_j62079457296944_1_alg».proof.Proof.RefRun
import proofs.«153871_j62079457296944_1_alg».proof.Proof.Gen.KernelIdeal
import proofs.«153871_j62079457296944_1_alg».proof.Proof.Layer
import proofs.«153871_j62079457296944_1_alg».proof.Proof.LibDotRowsCols
import proofs.«153871_j62079457296944_1_alg».proof.Proof.LibStagedRun
import Idealize.ShloMosaic.Lib.StableHlo.Run

set_option maxRecDepth 16384

noncomputable section

namespace Cert.ReferenceIdeal.Stages

open Cert.ReferenceIdeal Cert.ReferenceIdeal.Gen Cert.ReferenceIdeal.RunP Cert.KernelIdeal.Layer Cert.Lib.StagedRun Cert.Lib.DotRowsCols
open Idealize.ShloMosaic Idealize.ShloMosaic.TcCoe Idealize.ShloMosaic.StableHlo Idealize.SL.Sem

variable {F : FTy → Type} [FloatOps F]
variable (V : Valuation τ sig (Elt F))

/-! ## The fold, cut at the two products -/

/-- The operations before the first product, the first product, the first layer, the second product, the second layer. -/
abbrev opsA : List (HloOp τ sig (Elt F)) := (ops (F := F)).take 4
abbrev opsB : List (HloOp τ sig (Elt F)) := ((ops (F := F)).drop 4).take 1
abbrev opsC : List (HloOp τ sig (Elt F)) := (((ops (F := F)).drop 4).drop 1).take 57
abbrev opsD : List (HloOp τ sig (Elt F)) := ((((ops (F := F)).drop 4).drop 1).drop 57).take 1
abbrev opsE : List (HloOp τ sig (Elt F)) := ((((ops (F := F)).drop 4).drop 1).drop 57).drop 1

/-- The contents after each cut, kept folded. -/
def R1 : Valuation τ sig (Elt F) := after opsA V
def R2 : Valuation τ sig (Elt F) := after opsB (R1 V)
def R3 : Valuation τ sig (Elt F) := after opsC (R2 V)
def R4 : Valuation τ sig (Elt F) := after opsD (R3 V)

theorem fold_eq : after (ops (F := F)) V = after opsE (R4 V) := by
  unfold R4 R3 R2 R1
  rw [after_take_drop (ops (F := F)) 4 V, after_take_drop ((ops (F := F)).drop 4) 1,
    after_take_drop (((ops (F := F)).drop 4).drop 1) 57, after_take_drop ((((ops (F := F)).drop 4).drop 1).drop 57) 1]

/-! ## The stages -/

theorem R1_v1 : R1 V (Proc.devRef .tc main_v1) = rowOf (V (Proc.devRef .tc main_arg1)) := by
  unfold R1
  simp only [opsA, ops, List.take, List.drop]
  after_results_simp
  rfl

theorem R1_v3 : R1 V (Proc.devRef .tc main_v3) = colOf (V (Proc.devRef .tc main_arg1)) := by
  unfold R1
  simp only [opsA, ops, List.take, List.drop]
  after_results_simp
  rfl

theorem R1_keep (b : Ref sig .tc) (hb : b = main_arg0 ∨ b = main_arg2 ∨ b = main_arg3 ∨ b = main_arg4 ∨ b = main_arg5) :
    R1 V (Proc.devRef .tc b) = V (Proc.devRef .tc b) := by
  unfold R1
  simp only [opsA, ops, List.take, List.drop]
  rcases hb with rfl | rfl | rfl | rfl | rfl <;> after_results_simp

/-- The first product, a host dot_general of the launch arrays. -/
theorem R2_v4 : R2 V (Proc.devRef .tc main_v4)
    = Host.dotGeneral (F := F) dot_S100000x128_S128x16_S100000x16_1_0_0_1_n_n none (R1 V (Proc.devRef .tc main_arg0)) (R1 V (Proc.devRef .tc main_arg2)) := by
  unfold R2
  simp only [opsB, ops, List.take, List.drop]
  after_results_simp

theorem R2_keep (b : Ref sig .tc) (hb : b = main_v1 ∨ b = main_v3 ∨ b = main_arg3 ∨ b = main_arg4 ∨ b = main_arg5) :
    R2 V (Proc.devRef .tc b) = R1 V (Proc.devRef .tc b) := by
  unfold R2
  simp only [opsB, ops, List.take, List.drop]
  rcases hb with rfl | rfl | rfl | rfl | rfl <;> after_results_simp

set_option maxHeartbeats 2000000 in
/-- The first layer's output from the contents the first product left. -/
theorem R3_v47 : R3 V (Proc.devRef .tc main_v47)
    = layer (F := F) (R2 V (Proc.devRef .tc main_v4)) (R2 V (Proc.devRef .tc main_v1)) (R2 V (Proc.devRef .tc main_v3))
        (R2 V (Proc.devRef .tc main_arg3)) := by
  unfold R3
  simp only [opsC, ops, List.take, List.drop]
  after_results_simp
  results_rw
  rfl

theorem R3_keep (b : Ref sig .tc) (hb : b = main_v1 ∨ b = main_v3 ∨ b = main_arg4 ∨ b = main_arg5) :
    R3 V (Proc.devRef .tc b) = R2 V (Proc.devRef .tc b) := by
  unfold R3
  simp only [opsC, ops, List.take, List.drop]
  rcases hb with rfl | rfl | rfl | rfl <;> after_results_simp

/-- The second product. -/
theorem R4_v48 : R4 V (Proc.devRef .tc main_v48)
    = Host.dotGeneral (F := F) dot_S100000x16_S16x16_S100000x16_1_0_0_1_n_n none (R3 V (Proc.devRef .tc main_v47)) (R3 V (Proc.devRef .tc main_arg4)) := by
  unfold R4
  simp only [opsD, ops, List.take, List.drop]
  after_results_simp

theorem R4_keep (b : Ref sig .tc) (hb : b = main_v1 ∨ b = main_v3 ∨ b = main_arg5) :
    R4 V (Proc.devRef .tc b) = R3 V (Proc.devRef .tc b) := by
  unfold R4
  simp only [opsD, ops, List.take, List.drop]
  rcases hb with rfl | rfl | rfl <;> after_results_simp

set_option maxHeartbeats 2000000 in
/-- The result from the contents the second product left: the same layer again. -/
theorem R5_v91 : after (opsE (F := F)) (R4 V) (Proc.devRef .tc main_v91)
    = layer (F := F) (R4 V (Proc.devRef .tc main_v48)) (R4 V (Proc.devRef .tc main_v1)) (R4 V (Proc.devRef .tc main_v3))
        (R4 V (Proc.devRef .tc main_arg5)) := by
  simp only [opsE, ops, List.take, List.drop]
  after_results_simp
  results_rw
  rfl

/-! ## The result at the ideal values -/

section Value

variable (VI : Valuation τ sig (Elt Ideal))

theorem rowsColsR1 : RowsCols dot_S100000x128_S128x16_S100000x16_1_0_0_1_n_n := ⟨rfl, rfl, rfl, rfl, rfl, rfl⟩
theorem rowsColsR2 : RowsCols dot_S100000x16_S16x16_S100000x16_1_0_0_1_n_n := ⟨rfl, rfl, rfl, rfl, rfl, rfl⟩

/-- A host product is the plain sum over the shared axis. -/
theorem dot1_eq (x : FVec Ideal S100000x128 .f32) (w : FVec Ideal S128x16 .f32) :
    Host.dotGeneral (F := Ideal) dot_S100000x128_S128x16_S100000x16_1_0_0_1_n_n none x w = mm (n := 100000) (K := 128) (c := 16) x w :=
  funext fun j => rowsColsR1.dotGeneral_apply none x w j
theorem dot2_eq (x : FVec Ideal S100000x16 .f32) (w : FVec Ideal S16x16 .f32) :
    Host.dotGeneral (F := Ideal) dot_S100000x16_S16x16_S100000x16_1_0_0_1_n_n none x w = mm (n := 100000) (K := 16) (c := 16) x w :=
  funext fun j => rowsColsR2.dotGeneral_apply none x w j

/-- THE REFERENCE'S RESULT: the network of the contents its six arguments are launched with. -/
theorem ref_value : after (ops (F := Ideal)) VI (Proc.devRef .tc main_v91)
    = network (VI (Proc.devRef .tc main_arg0)) (VI (Proc.devRef .tc main_arg1)) (VI (Proc.devRef .tc main_arg2))
        (VI (Proc.devRef .tc main_arg3)) (VI (Proc.devRef .tc main_arg4)) (VI (Proc.devRef .tc main_arg5)) := by
  have hrow : ∀ b, b = main_v1 ∨ b = main_v3 ∨ b = main_arg5 → R4 VI (Proc.devRef .tc b) = R1 VI (Proc.devRef .tc b) := fun b hb =>
    (R4_keep VI b hb).trans ((R3_keep VI b (by rcases hb with h | h | h <;> simp [h])).trans
      (R2_keep VI b (by rcases hb with h | h | h <;> simp [h])))
  have h1 : R3 VI (Proc.devRef .tc main_v47)
      = layer (F := Ideal) (mm (n := 100000) (K := 128) (c := 16) (VI (Proc.devRef .tc main_arg0)) (VI (Proc.devRef .tc main_arg2)))
          (rowOf (VI (Proc.devRef .tc main_arg1))) (colOf (VI (Proc.devRef .tc main_arg1))) (VI (Proc.devRef .tc main_arg3)) := by
    rw [R3_v47, R2_v4, dot1_eq, R1_keep VI main_arg0 (.inl rfl), R1_keep VI main_arg2 (.inr (.inl rfl)),
      R2_keep VI main_v1 (.inl rfl), R2_keep VI main_v3 (.inr (.inl rfl)), R2_keep VI main_arg3 (.inr (.inr (.inl rfl))),
      R1_v1, R1_v3, R1_keep VI main_arg3 (.inr (.inr (.inl rfl)))]
  have h4 : R3 VI (Proc.devRef .tc main_arg4) = VI (Proc.devRef .tc main_arg4) :=
    (R3_keep VI main_arg4 (.inr (.inr (.inl rfl)))).trans ((R2_keep VI main_arg4 (.inr (.inr (.inr (.inl rfl))))).trans
      (R1_keep VI main_arg4 (.inr (.inr (.inr (.inl rfl))))))
  rw [fold_eq, R5_v91, R4_v48, dot2_eq, h1, h4, hrow main_v1 (.inl rfl), hrow main_v3 (.inr (.inl rfl)),
    hrow main_arg5 (.inr (.inr rfl)), R1_v1, R1_v3, R1_keep VI main_arg5 (.inr (.inr (.inr (.inr rfl))))]
  rfl

end Value

end Cert.ReferenceIdeal.Stages

end
-- ==== Proof.lean ====
/-
  A two-layer graph convolution: the kernel against its jnp reference, over the extended reals.

  Both programs compute  relu(A (relu(A (x·W1) + b1) · W2) + b2),  where A aggregates a node's neighbours (with
  self-loops) under the symmetric normalisation deg^(-1/2) · deg^(-1/2). The host operations of the two programs are the
  same, operation for operation; they differ only at the two dense products, which the reference computes with a
  dot_general and the kernel with a pallas_call that multiplies 5000 rows at a time into a zero accumulator after
  converting both operands to bf16. On ideal values the conversions are the identity and either product is
  Σ_q l[p, q] · w[q, v], so both results are the one function `network` of the six arguments (Proof/Layer.lean):
  the kernel's by Proof/RegionValue.lean (each call's 20 row blocks tile the whole product) and Proof/KernelStages.lean
  (the host stretches between the calls), the reference's by Proof/RefStages.lean. No finiteness is used: the two sides
  are the same sums in the same arrangement. The idealization rewrote nothing, so `preserves` is trivial.
-/
import proofs.«153871_j62079457296944_1_alg».proof.Defs
import proofs.«153871_j62079457296944_1_alg».proof.Proof.Gen.Kernel
import proofs.«153871_j62079457296944_1_alg».proof.Proof.Gen.Kernel.Skeleton
import proofs.«153871_j62079457296944_1_alg».proof.Proof.Gen.Kernel.Launch
import proofs.«153871_j62079457296944_1_alg».proof.Proof.Gen.Kernel.Points
import proofs.«153871_j62079457296944_1_alg».proof.Proof.Gen.Kernel.Frame
import proofs.«153871_j62079457296944_1_alg».proof.Proof.Gen.KernelIdeal
import proofs.«153871_j62079457296944_1_alg».proof.Proof.Gen.KernelIdeal.Skeleton
import proofs.«153871_j62079457296944_1_alg».proof.Proof.Gen.KernelIdeal.Launch
import proofs.«153871_j62079457296944_1_alg».proof.Proof.Gen.KernelIdeal.Points
import proofs.«153871_j62079457296944_1_alg».proof.Proof.Gen.KernelIdeal.Frame
import proofs.«153871_j62079457296944_1_alg».proof.Proof.Gen.ReferenceIdeal
import proofs.«153871_j62079457296944_1_alg».proof.Proof.Gen.Pre_finite_inputs
import proofs.«153871_j62079457296944_1_alg».proof.Proof.KernelRun
import proofs.«153871_j62079457296944_1_alg».proof.Proof.KernelStages
import proofs.«153871_j62079457296944_1_alg».proof.Proof.RefRun
import proofs.«153871_j62079457296944_1_alg».proof.Proof.RefStages
import Idealize.ShloMosaic.Adequacy
import Idealize.ShloMosaic.Init

noncomputable section

namespace Cert.Proof

open Idealize.ShloMosaic Idealize.ShloMosaic.TcCoe Idealize.SL.Sem

/-- The kernel as printed runs, and its arguments end as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the six arguments both programs end with `network` of those arguments in the result. -/
theorem algebraic : Cert.algebraic_KernelIdeal_ReferenceIdeal := by
  intro m ρ m' ρ' _ hagree
  refine ⟨fun c => Cert.KernelIdeal.Layer.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.kernel_value m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.RunP.run (F := Ideal) m' ρ')
    refine (Cert.ReferenceIdeal.Stages.ref_value (StableHlo.launchContents m' c)).trans ?_
    show Cert.KernelIdeal.Layer.network
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
